-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S11008x4096 : Shape := ⟨2, ![11008, 4096]⟩
abbrev S11008 : Shape := ⟨1, ![11008]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S8x2048x4096 .f32) (main_arg1 : IVec S11008x4096 32) (main_arg2 : FVec F S11008 .f32) (main_arg3 : FVec F S11008 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S8x2048x4096 : Shape := ⟨3, ![8, 2048, 4096]⟩
abbrev S11008x4096 : Shape := ⟨2, ![11008, 4096]⟩
abbrev S11008 : Shape := ⟨1, ![11008]⟩
abbrev S16384x4096 : Shape := ⟨2, ![16384, 4096]⟩
abbrev S1x11008 : Shape := ⟨2, ![1, 11008]⟩
abbrev S16384x11008 : Shape := ⟨2, ![16384, 11008]⟩
abbrev S512x2048 : Shape := ⟨2, ![512, 2048]⟩
abbrev S256x2048 : Shape := ⟨2, ![256, 2048]⟩
abbrev S1x256 : Shape := ⟨2, ![1, 256]⟩
abbrev S512x256 : Shape := ⟨2, ![512, 256]⟩
abbrev S8x2048x11008 : Shape := ⟨3, ![8, 2048, 11008]⟩

abbrev nBuf : Space → Nat
  | .hbm => 9
  | .vmem => 11
  | .smem => 0
  | _ => 0

abbrev bufTy : (tb : Table) → Fin (tcTables nBuf tb) → BufTy
  | .hbm, ⟨0, _⟩ => ⟨S8x2048x4096, .f32⟩
  | .hbm, ⟨1, _⟩ => ⟨S11008x4096, .i32⟩
  | .hbm, ⟨2, _⟩ => ⟨S11008, .f32⟩
  | .hbm, ⟨3, _⟩ => ⟨S11008, .f32⟩
  | .hbm, ⟨4, _⟩ => ⟨S16384x4096, .f32⟩
  | .hbm, ⟨5, _⟩ => ⟨S1x11008, .f32⟩
  | .hbm, ⟨6, _⟩ => ⟨S1x11008, .f32⟩
  | .hbm, ⟨7, _⟩ => ⟨S16384x11008, .f32⟩
  | .hbm, ⟨8, _⟩ => ⟨S8x2048x11008, .f32⟩
  | .local _ .vmem, ⟨0, _⟩ => ⟨S512x2048, .f32⟩
  | .local _ .vmem, ⟨1, _⟩ => ⟨S512x2048, .f32⟩
  | .local _ .vmem, ⟨2, _⟩ => ⟨S256x2048, .i32⟩
  | .local _ .vmem, ⟨3, _⟩ => ⟨S256x2048, .i32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![32, 43, 2], ![false, false, false]⟩

def k0_cond2 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S8x2048x4096_S16384x4096 : S8x2048x4096.ShapeCasts S16384x4096
  shapeCasts_S11008_S1x11008 : S11008.ShapeCasts S1x11008
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  shapeCasts_S16384x11008_S8x2048x11008 : S16384x11008.ShapeCasts S8x2048x11008
  dot_S512x2048_S256x2048_S512x256_1_1_0_0_n_n_wf : DotDims.WF S512x2048 S256x2048 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x4096.size a
  hwx0_0 : ∀ i : grid0.Coords, EltTy.bits .f32 = 32 ∨ (Rect.block (s := S16384x4096) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S11008x4096.size a
  hwx0_1 : ∀ i : grid0.Coords, EltTy.bits .i32 = 32 ∨ (Rect.block (s := S11008x4096) S256x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S16384x11008.size a
  hwx0_4 : ∀ i : grid0.Coords, EltTy.bits .f32 = 32 ∨ (Rect.block (s := S16384x11008) S512x256.size (cc0_transform_4 i) (hinb0_4 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S11008x4096 : Shape := ⟨2, ![11008, 4096]⟩
abbrev S11008 : Shape := ⟨1, ![11008]⟩
abbrev S11008x1 : Shape := ⟨2, ![11008, 1]⟩
abbrev S8x2048x11008 : Shape := ⟨3, ![8, 2048, 11008]⟩
abbrev S1x1x11008 : Shape := ⟨3, ![1, 1, 11008]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S11008x4096, .i32⟩
  | .hbm, ⟨2, _⟩ => ⟨S11008, .f32⟩
  | .hbm, ⟨3, _⟩ => ⟨S11008, .f32⟩
  | .hbm, ⟨4, _⟩ => ⟨S11008x4096, .f32⟩
  | .hbm, ⟨5, _⟩ => ⟨S11008x1, .f32⟩
  | .hbm, ⟨6, _⟩ => ⟨S11008x4096, .f32⟩
  | .hbm, ⟨7, _⟩ => ⟨S11008x4096, .f32⟩
  | .hbm, ⟨8, _⟩ => ⟨S8x2048x11008, .f32⟩
  | .hbm, ⟨9, _⟩ => ⟨S1x1x11008, .f32⟩
  | .hbm, ⟨10, _⟩ => ⟨S8x2048x11008, .f32⟩
  | .hbm, ⟨11, _⟩ => ⟨S8x2048x11008, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S11008_S1x1x11008_2 : S11008.BroadcastsInDim S1x1x11008 (![2] : Fin 1 → Fin S1x1x11008.rank)
  bcast_S1x1x11008_S8x2048x11008_0_1_2 : S1x1x11008.BroadcastsInDim S8x2048x11008 (![0, 1, 2] : Fin 3 → Fin S8x2048x11008.rank)
  dot_S8x2048x4096_S11008x4096_S8x2048x11008_2_1_01_0_n_n_wf : DotDims.WF S8x2048x4096 S11008x4096 S8x2048x11008 [2] [1] [0, 1] [0] [] []

variable [Facts₀]

def dot_S8x2048x4096_S11008x4096_S8x2048x11008_2_1_01_0_n_n : DotDims S8x2048x4096 S11008x4096 S8x2048x11008 where
  lhsContracting := [2]
  rhsContracting := [1]
  lhsNonContracting := [0, 1]
  rhsNonContracting := [0]
  lhsBatch := []
  rhsBatch := []
  wf := dot_S8x2048x4096_S11008x4096_S8x2048x11008_2_1_01_0_n_n_wf

class Facts : Prop extends Facts₀ where

variable [Facts]
-- ==== Proof.AccPieces.lean ====
/-
  What the accumulating kernel leaves behind, point by point.

  The grid is (row tile, channel tile, half of the contracted axis); positions are numbered row-major, so an EVEN position
  is a first half and the ODD position after it the second half of the same (row tile, channel tile).  The body, at a
  first half, zeroes its accumulator and adds the first half's product to it; at a second half it adds the second half's
  product to what the point before left, then stores accumulator · scale + bias into the output block.  So after an odd
  position the output block is a function of the two points' input blocks alone: no induction along the grid is needed,
  only one step back.  Everything here is generic in the float instance.
-/
import proofs.«132910_j17377437680105_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.AccPieces

open Cert.KernelIdeal Cert.KernelIdeal.Gen

variable {F : FTy → Type} [FloatOps F]

/-- The zero offsets of a store or load of a whole buffer. -/
theorem hz : (![0, 0] : Fin 2 → Nat) = fun _ => 0 := funext fun a => by fin_cases a <;> rfl

/-! ## What one run of the body leaves, per control case -/

/-- FIRST HALF: the accumulator is stored twice, the zero block and then the update, and the update covers; the update
    read the zero block back, so the accumulator ends at the first half's product added to zero. -/
theorem scratch_A (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (hc0 : cond0_0 i) (hc1 : ¬cond0_1 i)
    (x0 : Vec F S512x2048 .f32) (x1 : Vec F S256x2048 .i32) (x2 : Vec F S1x256 .f32) (x3 : Vec F S1x256 .f32) :
    sout0_A_0 c i arg3 harg3 arg4 harg4 arg5 harg5 arg6 harg6 arg7 harg7 arg8 harg8 hc0 hc1 x0 x1 x2 x3 = k0_pay2 x0 x1 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S512x256) hz]
  simp only [View.readAt_eq_ld, harg3.read_unread, harg4.read_unread, View.ld_unit_zero (S := S512x2048) hz,
    View.ld_unit_zero (S := S256x2048) hz, View.readCov_unit_zero (S := S512x256) _ hz]

/-- SECOND HALF, the accumulator: one covering store, the update over what the accumulator held. -/
theorem scratch_B (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (hc0 : ¬cond0_0 i) (hc1 : cond0_1 i)
    (x0 : Vec F S512x2048 .f32) (x1 : Vec F S256x2048 .i32) (x2 : Vec F S1x256 .f32) (x3 : Vec F S1x256 .f32) (xs0 : Vec F S512x256 .f32) :
    sout0_B_0 c i arg3 harg3 arg4 harg4 arg5 harg5 arg6 harg6 arg7 harg7 arg8 harg8 hc0 hc1 x0 x1 x2 x3 xs0 = k0_pay2 x0 x1 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero (S := S512x256) hz]
  simp only [View.readAt_eq_ld, harg3.read_unread, harg4.read_unread, harg8.read_unread, View.ld_unit_zero (S := S512x2048) hz,
    View.ld_unit_zero (S := S256x2048) hz, View.ld_unit_zero (S := S512x256) hz]

/-- SECOND HALF, the output block: one covering store of the epilogue, which read the updated accumulator back. -/
theorem out_B (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .f32) (harg8 : arg8.IsWhole) (hc0 : ¬cond0_0 i) (hc1 : cond0_1 i)
    (x0 : Vec F S512x2048 .f32) (x1 : Vec F S256x2048 .i32) (x2 : Vec F S1x256 .f32) (x3 : Vec F S1x256 .f32) (xs0 : Vec F S512x256 .f32) :
    out0_B_4 c i arg3 harg3 arg4 harg4 arg5 harg5 arg6 harg6 arg7 harg7 arg8 harg8 hc0 hc1 x0 x1 x2 x3 xs0 = k0_pay3 (k0_pay2 x0 x1 xs0) x2 x3 := by
  unfold out0_B_4
  rw [View.read_writes_eq_canon _ _ _ (cover0_B_4 c i arg3 harg3 arg4 harg4 arg5 harg5 arg6 harg6 arg7 harg7 arg8 harg8 hc0 hc1 x0 x1 x2 x3 xs0)]
  unfold kernelRun0_B
  dsimp only
  sl_unfold_words
  rw [View.canon_unit_zero (S := S512x256) hz]
  simp only [View.readAt_eq_ld, harg3.read_unread, harg4.read_unread, harg5.read_unread, harg6.read_unread, harg8.read_unread,
    View.ld_unit_zero (S := S512x2048) hz, View.ld_unit_zero (S := S256x2048) hz, View.ld_unit_zero (S := S512x256) hz,
    View.ld_unit_zero (S := S1x256) hz, View.readCov_unit_zero (S := S512x256) _ hz]

/-! ## Along the grid: one step back suffices -/

variable (m : (ℓ : Loc nD τ sig) → Buf (Elt F) ℓ)

/-- The four input blocks of position `t`, at their literal types: a 512-row tile of the activations over one half of the
    contracted axis, a 256-channel tile of the weights over the same half, and the channel tile of the scale and of the bias. -/
abbrev xblk (c : Dev nD) (t : Fin cfg0.N) : Vec F S512x2048 .f32 := iblk m c 0 t
abbrev wblk (c : Dev nD) (t : Fin cfg0.N) : Vec F S256x2048 .i32 := iblk m c 1 t
abbrev sblk (c : Dev nD) (t : Fin cfg0.N) : Vec F S1x256 .f32 := iblk m c 2 t
abbrev bblk (c : Dev nD) (t : Fin cfg0.N) : Vec F S1x256 .f32 := iblk m c 3 t

/-- The position before `t`. -/
abbrev prev (t : Fin cfg0.N) : Fin cfg0.N := ⟨t.val - 1, Nat.lt_of_le_of_lt (Nat.sub_le _ _) t.isLt⟩

/-- After an even position the accumulator holds that position's product added to the zero block, whatever came before. -/
theorem scratch_even (c : Dev nD) (n : ℕ) (hn : n < cfg0.N) (h0 : n % 2 = 0) :
    (outsAt0 m c n hn).2 = k0_pay2 (xblk m c ⟨n, hn⟩) (wblk m c ⟨n, hn⟩) (k0_pay1 (F := F)) := by
  have h1 : ¬n % 2 = 1 := by omega
  rw [outsAt0_A m c ⟨n, hn⟩ h0 h1]
  dsimp only
  exact scratch_A (F := F) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩)
    (ms0_3 ⟨n, hn⟩) (hs0_3 ⟨n, hn⟩) (ms0_4 ⟨n, hn⟩) (hs0_4 ⟨n, hn⟩) scM0_0 (Memref.isWhole_whole _) ((hcond0_0 ⟨n, hn⟩).mpr h0)
    (fun h => h1 ((hcond0_1 ⟨n, hn⟩).mp h)) (iblk m c 0 ⟨n, hn⟩) (iblk m c 1 ⟨n, hn⟩) (iblk m c 2 ⟨n, hn⟩) (iblk m c 3 ⟨n, hn⟩)

/-- After an odd position the output's block is the epilogue of: this position's product added to the previous position's
    product added to zero; scaled and biased by this position's channel tiles. -/
theorem out_odd (c : Dev nD) (t : Fin cfg0.N) (h1 : t.val % 2 = 1) :
    (outsAt0 m c t.val t.isLt).1
      = k0_pay3 (k0_pay2 (xblk m c t) (wblk m c t) (k0_pay2 (xblk m c (prev t)) (wblk m c (prev t)) (k0_pay1 (F := F)))) (sblk m c t) (bblk m c t) := by
  have h0 : ¬t.val % 2 = 0 := by omega
  rw [outsAt0_B m c t h0 h1]
  dsimp only
  refine (out_B (F := F) c (grid0.coords t) (ms0_0 t) (hs0_0 t) (ms0_1 t) (hs0_1 t) (ms0_2 t) (hs0_2 t) (ms0_3 t) (hs0_3 t) (ms0_4 t) (hs0_4 t)
    scM0_0 (Memref.isWhole_whole _) (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2).trans ?_
  rw [scratch_even m c (t.val - 1) (Nat.lt_of_le_of_lt (Nat.sub_le _ _) t.isLt) (by omega)]

end Cert.KernelIdeal.AccPieces

end
-- ==== Proof.BlockValue.lean ====
/-
  The output block the kernel body computes, at one row and one column.

  The body clears an accumulator, adds to it twice a product of a block of activations with a block of integer weights
  (each product contracts the 2048 columns the two blocks share), and finally scales each column by its channel's
  scale and adds the channel's bias.  Here every step is read at the entry in row `p` and column `q`, at the ideal
  values, where a conversion changes nothing and an integer is read as the signed integer it is.
-/
import proofs.«132910_j17377437680105_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx

/-! ## The cleared accumulator -/

/-- The cleared accumulator holds zero at every entry. -/
theorem pay1_at (j : S512x256.Idx) : k0_pay1 (F := Ideal) j = 0 := by
  unfold k0_pay1
  rw [shapeCast_self]
  exact Ideal.ofBits_zero_f32

/-! ## The operand indices of the block product

The product keeps the rows of its left operand (axis 0) and the rows of its right operand (axis 0), and contracts the
columns of both (axis 1).  At the output entry `j` and contraction index `c` the left operand is therefore read at
`(j 0, c)` and the right one at `(j 1, c)`. -/

theorem lhs_axis0 (j : S512x256.Idx) (c : dot_S512x2048_S256x2048_S512x256_1_1_0_0_n_n.contr.Idx) :
    (dot_S512x2048_S256x2048_S512x256_1_1_0_0_n_n.lhsIdx j c 0).val = (j 0).val := by
  unfold DotDims.lhsIdx
  rw [dif_neg (show ¬(0 : Fin S512x2048.rank) ∈ dot_S512x2048_S256x2048_S512x256_1_1_0_0_n_n.lhsBatch by decide), dif_pos (show (0 : Fin S512x2048.rank) ∈ dot_S512x2048_S256x2048_S512x256_1_1_0_0_n_n.lhsNonContracting by decide)]
  rfl

theorem lhs_axis1 (j : S512x256.Idx) (c : dot_S512x2048_S256x2048_S512x256_1_1_0_0_n_n.contr.Idx) :
    (dot_S512x2048_S256x2048_S512x256_1_1_0_0_n_n.lhsIdx j c 1).val = (c ⟨0, by decide⟩).val :=
  dot_S512x2048_S256x2048_S512x256_1_1_0_0_n_n.lhsIdx_val_of_single rfl j c

theorem rhs_axis0 (j : S512x256.Idx) (c : dot_S512x2048_S256x2048_S512x256_1_1_0_0_n_n.contr.Idx) :
    (dot_S512x2048_S256x2048_S512x256_1_1_0_0_n_n.rhsIdx j c 0).val = (j 1).val := by
  unfold DotDims.rhsIdx
  rw [dif_neg (show ¬(0 : Fin S256x2048.rank) ∈ dot_S512x2048_S256x2048_S512x256_1_1_0_0_n_n.rhsBatch by decide), dif_pos (show (0 : Fin S256x2048.rank) ∈ dot_S512x2048_S256x2048_S512x256_1_1_0_0_n_n.rhsNonContracting by decide)]
  rfl

theorem rhs_axis1 (j : S512x256.Idx) (c : dot_S512x2048_S256x2048_S512x256_1_1_0_0_n_n.contr.Idx) :
    (dot_S512x2048_S256x2048_S512x256_1_1_0_0_n_n.rhsIdx j c 1).val = (c ⟨0, by decide⟩).val :=
  dot_S512x2048_S256x2048_S512x256_1_1_0_0_n_n.rhsIdx_val_of_single rfl j c

/-! ## One accumulation step -/

/-- One accumulation step adds, to the accumulator's entry, the sum over the 2048 shared columns of the activation in
    row `p` times the weight in row `q`, the weight read as a signed integer. -/
theorem pay2_at (x : Vec Ideal S512x2048 .f32) (w : Vec Ideal S256x2048 .i32) (a : Vec Ideal S512x256 .f32)
    (p : Fin 512) (q : Fin 256) :
    k0_pay2 (F := Ideal) x w a (ix2 p q)
      = a (ix2 p q) + ∑ k : Fin 2048, x (ix2 p k) * (((w (ix2 q k)).toInt : ℝ) : EReal) := by
  unfold k0_pay2
  rw [shapeCast_self, shapeCast_self, addf_apply]
  refine congrArg (a (ix2 p q) + ·) ?_
  refine (Ideal.matmul_constant_zero_apply dot_S512x2048_S256x2048_S512x256_1_1_0_0_n_n none _ _ (ix2 p q)).trans ?_
  rw [← Equiv.sum_comp (contrEquiv1 dot_S512x2048_S256x2048_S512x256_1_1_0_0_n_n 2048 rfl rfl).symm]
  refine Finset.sum_congr rfl fun k _ => ?_
  have hk := contrEquiv1_symm_val dot_S512x2048_S256x2048_S512x256_1_1_0_0_n_n 2048 rfl rfl k
  have el : dot_S512x2048_S256x2048_S512x256_1_1_0_0_n_n.lhsIdx (ix2 p q) ((contrEquiv1 dot_S512x2048_S256x2048_S512x256_1_1_0_0_n_n 2048 rfl rfl).symm k) = ix2 p k := funext fun ax => Fin.ext (by
    match ax with
    | ⟨0, _⟩ => exact lhs_axis0 _ _
    | ⟨1, _⟩ => exact (lhs_axis1 _ _).trans hk)
  have er : dot_S512x2048_S256x2048_S512x256_1_1_0_0_n_n.rhsIdx (ix2 p q) ((contrEquiv1 dot_S512x2048_S256x2048_S512x256_1_1_0_0_n_n 2048 rfl rfl).symm k) = ix2 q k := funext fun ax => Fin.ext (by
    match ax with
    | ⟨0, _⟩ => exact rhs_axis0 _ _
    | ⟨1, _⟩ => exact (rhs_axis1 _ _).trans hk)
  rw [el, er]
  rfl

/-! ## The scale and the bias -/

/-- The last step multiplies the accumulator's entry by the scale of its column and adds the bias of its column. -/
theorem pay3_at (acc : Vec Ideal S512x256 .f32) (s b : Vec Ideal S1x256 .f32) (p : Fin 512) (q : Fin 256) :
    k0_pay3 (F := Ideal) acc s b (ix2 p q) = acc (ix2 p q) * s (ix2 (0 : Fin 1) q) + b (ix2 (0 : Fin 1) q) := by
  unfold k0_pay3
  rw [shapeCast_self, shapeCast_self, addf_apply, mulf_apply, broadcastTo_1b_ab_apply, broadcastTo_1b_ab_apply]

/-! ## The block -/

/-- After the accumulator is cleared and the two halves are accumulated, the block's entry in row `p` and column `q`
    is zero plus the first half's sum plus the second half's sum, times the column's scale, plus the column's bias. -/
theorem block_at (xa xb : Vec Ideal S512x2048 .f32) (qa qb : Vec Ideal S256x2048 .i32) (sb bb : Vec Ideal S1x256 .f32)
    (p : Fin 512) (q : Fin 256) :
    k0_pay3 (F := Ideal) (k0_pay2 xb qb (k0_pay2 xa qa (k0_pay1 (F := Ideal)))) sb bb (ix2 p q)
      = ((0 + ∑ k : Fin 2048, xa (ix2 p k) * (((qa (ix2 q k)).toInt : ℝ) : EReal))
          + ∑ k : Fin 2048, xb (ix2 p k) * (((qb (ix2 q k)).toInt : ℝ) : EReal)) * sb (ix2 (0 : Fin 1) q)
        + bb (ix2 (0 : Fin 1) q) := by
  rw [pay3_at, pay2_at, pay2_at, pay1_at]

end Cert.KernelIdeal.BlockValue

end
-- ==== Proof.EntryArrays.lean ====
/-
  The three arrays the kernel region reads that the program's entry function first reshapes.

  The entry function views the activations `[8, 2048, 4096]` as `[16384, 4096]`, and each of the two per-channel vectors
  `[11008]` as one row `[1, 11008]`.  A reshape keeps the row-major order of the elements, so row `r` of the flattened
  activations is row `r % 2048` of batch `r / 2048`, and the one row of a reshaped vector is the vector itself.
-/
import proofs.«132910_j17377437680105_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.EntryArrays

open Cert.KernelIdeal Cert.KernelIdeal.Gen Idealize.ShloMosaic Idealize.ShloMosaic.TcCoe Idealize.ShloMosaic.ValueIdx
open Idealize.SL.Sem Idealize.ShloMosaic.StableHlo

variable {F : FTy → Type} [FloatOps F]
variable (m : (ℓ : Loc nD τ sig) → Buf (Elt F) ℓ)

/-! ## The arrays as terms over the launch contents -/

/-- The flattened activations are the activations' array cast to two axes. -/
theorem x_term (c : Dev nD) :
    (V m c main_v0 : S16384x4096.Idx → Elt F .f32)
      = shapeCast S16384x4096 (m ((c : Thread nD τ).loc main_arg0) : S8x2048x4096.Idx → Elt F .f32) shapeCasts_S8x2048x4096_S16384x4096 := by
  show StableHlo.after hostOps0 (fun b => m (c, b)) (Proc.devRef .tc main_v0) = _
  after_results
  rfl

/-- The scale's one row is the scale vector cast to two axes. -/
theorem scale_term (c : Dev nD) :
    (V m c main_v1 : S1x11008.Idx → Elt F .f32)
      = shapeCast S1x11008 (m ((c : Thread nD τ).loc main_arg2) : S11008.Idx → Elt F .f32) shapeCasts_S11008_S1x11008 := by
  show StableHlo.after hostOps0 (fun b => m (c, b)) (Proc.devRef .tc main_v1) = _
  after_results
  rfl

/-- The bias's one row is the bias vector cast to two axes. -/
theorem bias_term (c : Dev nD) :
    (V m c main_v2 : S1x11008.Idx → Elt F .f32)
      = shapeCast S1x11008 (m ((c : Thread nD τ).loc main_arg3) : S11008.Idx → Elt F .f32) shapeCasts_S11008_S1x11008 := by
  show StableHlo.after hostOps0 (fun b => m (c, b)) (Proc.devRef .tc main_v2) = _
  after_results
  rfl

/-! ## The arrays at an entry -/

/-- Row `r`, column `k` of the flattened activations is the activation of batch `r / 2048`, row `r % 2048`, column `k`:
    both have row-major position `r * 4096 + k`. -/
theorem entry_x (c : Dev nD) (r : Fin 16384) (k : Fin 4096) :
    (V m c main_v0 : S16384x4096.Idx → Elt F .f32) (ix2 r k)
      = m ((c : Thread nD τ).loc main_arg0) (ix3 (⟨r.val / 2048, by omega⟩ : Fin 8) (⟨r.val % 2048, Nat.mod_lt _ (by decide)⟩ : Fin 2048) k) := by
  have hpos : (S8x2048x4096.rowMajor (ix3 (⟨r.val / 2048, by omega⟩ : Fin 8) (⟨r.val % 2048, Nat.mod_lt _ (by decide)⟩ : Fin 2048) k)).val
      = (S16384x4096.rowMajor (ix2 r k)).val := by
    rw [Shape.rowMajor_val_two, Shape.rowMajor_val_three]
    show (r.val / 2048 * 2048 + r.val % 2048) * 4096 + k.val = r.val * 4096 + k.val
    omega
  rw [x_term]
  exact shapeCast_apply _ _ _ _ hpos

/-- The scale's one row at column `o` is the scale of channel `o`. -/
theorem entry_scale (c : Dev nD) (u : Fin 1) (o : Fin 11008) :
    (V m c main_v1 : S1x11008.Idx → Elt F .f32) (ix2 u o) = m ((c : Thread nD τ).loc main_arg2) (ix1 o) := by
  rw [scale_term]
  exact shapeCast_a_1a_apply _ _ u o

/-- The bias's one row at column `o` is the bias of channel `o`. -/
theorem entry_bias (c : Dev nD) (u : Fin 1) (o : Fin 11008) :
    (V m c main_v2 : S1x11008.Idx → Elt F .f32) (ix2 u o) = m ((c : Thread nD τ).loc main_arg3) (ix1 o) := by
  rw [bias_term]
  exact shapeCast_a_1a_apply _ _ u o

end Cert.KernelIdeal.EntryArrays

end
-- ==== Proof.QuantLaw.lean ====
/-
  The mathematics that joins the two programs, free of both.

  Per output channel `o` the weight row is `q o k · s o` with `q` an integer and `s` the channel's scale, so a row of the
  linear layer is `∑ k, x k · (q o k · s o) + b o`.  The scale does not depend on the contracted index, so it factors out of
  the sum: `(∑ k, x k · q o k) · s o + b o`; and a sum over 4096 terms is the sum of its first 2048 and its last 2048.
  Factoring a common factor out of a sum is a law of the real numbers and FAILS on the extended reals at the infinities
  (`∞ · s + (-∞) · s` against `(∞ + (-∞)) · s`), so the law is stated for real `x` and real `s`; the integers are real as
  they stand, and the bias, which is only added last on both sides, may be any extended real.
-/
import Idealize.ShloMosaic.PureOps.Ideal.Laws
import Idealize.ShloMosaic.Lib.ValueIdx

noncomputable section

namespace Cert.QuantLaw

open Idealize.ShloMosaic Idealize.ShloMosaic.ValueIdx

/-- A finite sum of real numbers, read in the extended reals, is the sum of the numbers read there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Contracted index `k` of the first half of the 4096, -/
abbrev lo (k : Fin 2048) : Fin 4096 := ⟨k.val, by omega⟩
/-- and of the second half. -/
abbrev hi (k : Fin 2048) : Fin 4096 := ⟨2048 + k.val, by omega⟩

/-- A sum over the 4096 is the sum over its first half plus the sum over its second half. -/
theorem sum_halves (f : Fin 4096 → ℝ) : ∑ k : Fin 4096, f k = (∑ k : Fin 2048, f (lo k)) + ∑ k : Fin 2048, f (hi k) :=
  Fin.sum_univ_add (a := 2048) (b := 2048) (fun k : Fin (2048 + 2048) => f k)

/-- Over the reals: the two half sums of `x · q`, added, then scaled, are the sum of `x · (q · s)`. -/
theorem real_law (x q : Fin 4096 → ℝ) (s : ℝ) :
    ((∑ k : Fin 2048, x (lo k) * q (lo k)) + ∑ k : Fin 2048, x (hi k) * q (hi k)) * s = ∑ k : Fin 4096, x k * (q k * s) := by
  rw [← sum_halves (fun k => x k * q k), Finset.sum_mul]
  exact Finset.sum_congr rfl fun k _ => mul_assoc _ _ _

/-- The same on the extended reals, for real `x` and a real scale: from a zero accumulator, the first half's products
    added, then the second half's, the total scaled and the bias added, is the sum of `x · (q · s)` plus the bias. -/
theorem ereal_law (x : Fin 4096 → EReal) (hx : ∀ k, ∃ r : ℝ, x k = (r : EReal)) (q : Fin 4096 → ℝ)
    (s : EReal) (hs : ∃ r : ℝ, s = (r : EReal)) (b : EReal) :
    ((0 + ∑ k : Fin 2048, x (lo k) * (q (lo k) : EReal)) + ∑ k : Fin 2048, x (hi k) * (q (hi k) : EReal)) * s + b
      = (∑ k : Fin 4096, x k * ((q k : EReal) * s)) + b := by
  choose xr hxr using hx
  obtain ⟨sr, rfl⟩ := hs
  rw [zero_add]
  simp only [hxr, ← EReal.coe_mul, ← coe_sum, ← EReal.coe_add]
  rw [real_law xr q sr]

/-! ## The result as one function of the argument arrays -/

/-- The activations `[8, 2048, 4096]`, the integer weights `[11008, 4096]`, a per-channel vector `[11008]`, the result `[8, 2048, 11008]`. -/
abbrev SX : Shape := ⟨3, ![8, 2048, 4096]⟩
abbrev SQ : Shape := ⟨2, ![11008, 4096]⟩
abbrev SC : Shape := ⟨1, ![11008]⟩
abbrev SY : Shape := ⟨3, ![8, 2048, 11008]⟩

/-- The linear layer with per-channel dequantized weights: at `(b, t, o)` the sum over `k` of `x (b, t, k)` times the weight
    `q (o, k)`, read as a signed integer, times the channel's scale, plus the channel's bias. -/
def G (X : SX.Idx → EReal) (Q : SQ.Idx → BitVec 32) (S B : SC.Idx → EReal) : SY.Idx → EReal := fun i =>
  (∑ k : Fin 4096, X (ix3 (i 0) (i 1) k) * ((((Q (ix2 (i 2) k)).toInt : ℝ) : EReal) * S (ix1 (i 2)))) + B (ix1 (i 2))

end Cert.QuantLaw

end
-- ==== Proof.OutArray.lean ====
/-
  The kernel region's result array, as one function of the argument arrays.

  Each odd grid position writes back one [512, 256] block; its entry (p, q) is the body's arithmetic over the two
  positions' input blocks (two half sums of activation · weight from a zero accumulator, scaled, biased), and those block
  entries are the argument arrays at row `tile · 512 + p`, channel `tile · 256 + q`, contracted index `half · 2048 + k`.
  The odd positions' blocks tile the [16384, 11008] array, so it ends holding that function everywhere.  The one
  non-trivial law, factoring the channel's scale out of the sum, needs the activations and the scale to be real.
-/
import proofs.«132910_j17377437680105_1_alg».proof.Proof.AccPieces
import proofs.«132910_j17377437680105_1_alg».proof.Proof.BlockValue
import proofs.«132910_j17377437680105_1_alg».proof.Proof.EntryArrays
import proofs.«132910_j17377437680105_1_alg».proof.Proof.QuantLaw
import Idealize.ShloMosaic.Lib.ValueIdx
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.OutArray

open Cert.KernelIdeal Cert.KernelIdeal.Gen Cert.KernelIdeal.AccPieces

/-! ## The index maps over the grid -/

/-- Position `t` of the row-major grid (32 row tiles, 43 channel tiles, 2 halves) is row tile `t / 86`, channel tile
    `t / 2 % 43`, half `t % 2`; each window's block index is read off those. Decided over the 2752 positions. -/
theorem idx_closed : ∀ t : Fin cfg0.N,
    win0_0.index t (0 : Fin 2) = t.val / 86 ∧ win0_0.index t (1 : Fin 2) = t.val % 2
    ∧ win0_1.index t (0 : Fin 2) = t.val / 2 % 43 ∧ win0_1.index t (1 : Fin 2) = t.val % 2
    ∧ win0_2.index t (0 : Fin 2) = 0 ∧ win0_2.index t (1 : Fin 2) = t.val / 2 % 43
    ∧ win0_3.index t (0 : Fin 2) = 0 ∧ win0_3.index t (1 : Fin 2) = t.val / 2 % 43
    ∧ win0_4.index t (0 : Fin 2) = t.val / 86 ∧ win0_4.index t (1 : Fin 2) = t.val / 2 % 43 :=
  (by decide +kernel : ∀ t : Fin grid0.N, _)

/-- An index of the result array lies in position `t`'s output block iff each coordinate lies in the block's range. -/
theorem mem_blk (t : Fin cfg0.N) (i : S16384x11008.Idx) :
    i ∈ ((cfg0.win 4).blk t).view.set ↔ ∀ a : Fin 2, win0_4.index t a * S512x256.size a ≤ (i a).val ∧ (i a).val < win0_4.index t a * S512x256.size a + S512x256.size a := by
  show i ∈ ((View.whole main_v3).slice (win0_4.rect t)).set ↔ _
  rw [View.set_slice_whole, Rect.mem_set_unit]
  exact Iff.rfl

/-- Every index (r, o) of the result array is in the block written back at the second half of (r / 512, o / 256). -/
theorem cover (i : S16384x11008.Idx) : ∃ t : Fin cfg0.N, (cfg0.win 4).flush t = true ∧ i ∈ ((cfg0.win 4).blk t).view.set := by
  have h0 : (i 0).val < 16384 := (i 0).isLt
  have h1 : (i 1).val < 11008 := (i 1).isLt
  have hN : cfg0.N = 2752 := N_0
  obtain ⟨tv, htv⟩ : ∃ tv : ℕ, tv = (i 0).val / 512 * 86 + (i 1).val / 256 * 2 + 1 := ⟨_, rfl⟩
  have ht : tv < cfg0.N := by rw [hN]; omega
  refine ⟨⟨tv, ht⟩, (flush0_4 _).mpr (by show tv % 2 = 1; omega), ?_⟩
  rw [mem_blk]
  obtain ⟨-, -, -, -, -, -, -, -, e0, e1⟩ := idx_closed ⟨tv, ht⟩
  intro a
  match a with
  | ⟨0, _⟩ =>
    show win0_4.index ⟨tv, ht⟩ (0 : Fin 2) * 512 ≤ (i 0).val ∧ (i 0).val < win0_4.index ⟨tv, ht⟩ (0 : Fin 2) * 512 + 512
    rw [e0]; show tv / 86 * 512 ≤ (i 0).val ∧ (i 0).val < tv / 86 * 512 + 512; omega
  | ⟨1, _⟩ =>
    show win0_4.index ⟨tv, ht⟩ (1 : Fin 2) * 256 ≤ (i 1).val ∧ (i 1).val < win0_4.index ⟨tv, ht⟩ (1 : Fin 2) * 256 + 256
    rw [e1]; show tv / 2 % 43 * 256 ≤ (i 1).val ∧ (i 1).val < tv / 2 % 43 * 256 + 256; omega

/-! ## The input blocks read at an entry, in terms of the argument arrays -/

variable (m : (ℓ : Loc nD τ sig) → Buf (Elt Ideal) ℓ)

/-- The four argument arrays at their literal types: activations, integer weights, per-channel scale and bias. -/
abbrev argX (c : Dev nD) : S8x2048x4096.Idx → EReal := m ((c : Thread nD τ).loc main_arg0)
abbrev argQ (c : Dev nD) : S11008x4096.Idx → BitVec 32 := m ((c : Thread nD τ).loc main_arg1)
abbrev argS (c : Dev nD) : S11008.Idx → EReal := m ((c : Thread nD τ).loc main_arg2)
abbrev argB (c : Dev nD) : S11008.Idx → EReal := m ((c : Thread nD τ).loc main_arg3)

/-- Row `r` of the flattened activations is (batch, position) = (r / 2048, r % 2048). -/
abbrev rowB (r : Fin 16384) : Fin 8 := ⟨r.val / 2048, by have := r.isLt; omega⟩
abbrev rowT (r : Fin 16384) : Fin 2048 := ⟨r.val % 2048, Nat.mod_lt _ (by decide)⟩

/-- The activations' block of position `t` at (p, k) is the argument at row `tile · 512 + p` and contracted index
    `half · 2048 + k`. -/
theorem x_at (c : Dev nD) (t : Fin cfg0.N) (p : Fin 512) (k : Fin 2048) (r : Fin 16384) (kk : Fin 4096)
    (hr : r.val = win0_0.index t (0 : Fin 2) * 512 + p.val) (hk : kk.val = win0_0.index t (1 : Fin 2) * 2048 + k.val) :
    xblk m c t (ix2 p k) = argX m c (ix3 (rowB r) (rowT r) kk) := by
  refine Eq.trans ?_ (EntryArrays.entry_x m c r kk)
  show V m c main_v0 (((cfg0.win 0).blk t).view.emb (ix2 p k)) = V m c main_v0 (ix2 r kk)
  refine congrArg _ (funext fun a => Fin.ext ?_)
  match a with
  | ⟨0, _⟩ => show win0_0.index t (0 : Fin 2) * 512 + 1 * p.val = r.val; omega
  | ⟨1, _⟩ => show win0_0.index t (1 : Fin 2) * 2048 + 1 * k.val = kk.val; omega

/-- The weights' block of position `t` at (q, k) is the argument at channel `tile · 256 + q` and contracted index
    `half · 2048 + k`. -/
theorem w_at (c : Dev nD) (t : Fin cfg0.N) (q : Fin 256) (k : Fin 2048) (o : Fin 11008) (kk : Fin 4096)
    (ho : o.val = win0_1.index t (0 : Fin 2) * 256 + q.val) (hk : kk.val = win0_1.index t (1 : Fin 2) * 2048 + k.val) :
    wblk m c t (ix2 q k) = argQ m c (ix2 o kk) := by
  refine Eq.trans ?_ (congrFun (V_main_arg1 m c) (ix2 o kk))
  show V m c main_arg1 (((cfg0.win 1).blk t).view.emb (ix2 q k)) = V m c main_arg1 (ix2 o kk)
  refine congrArg _ (funext fun a => Fin.ext ?_)
  match a with
  | ⟨0, _⟩ => show win0_1.index t (0 : Fin 2) * 256 + 1 * q.val = o.val; omega
  | ⟨1, _⟩ => show win0_1.index t (1 : Fin 2) * 2048 + 1 * k.val = kk.val; omega

/-- The scale's block of position `t` at column q is the argument at channel `tile · 256 + q`. -/
theorem s_at (c : Dev nD) (t : Fin cfg0.N) (q : Fin 256) (o : Fin 11008)
    (h0 : win0_2.index t (0 : Fin 2) = 0) (ho : o.val = win0_2.index t (1 : Fin 2) * 256 + q.val) :
    sblk m c t (ix2 (0 : Fin 1) q) = argS m c (ix1 o) := by
  refine Eq.trans ?_ (EntryArrays.entry_scale m c (0 : Fin 1) o)
  show V m c main_v1 (((cfg0.win 2).blk t).view.emb (ix2 (0 : Fin 1) q)) = V m c main_v1 (ix2 (0 : Fin 1) o)
  refine congrArg _ (funext fun a => Fin.ext ?_)
  match a with
  | ⟨0, _⟩ => show win0_2.index t (0 : Fin 2) * 1 + 1 * 0 = 0; omega
  | ⟨1, _⟩ => show win0_2.index t (1 : Fin 2) * 256 + 1 * q.val = o.val; omega

/-- The bias's block likewise. -/
theorem b_at (c : Dev nD) (t : Fin cfg0.N) (q : Fin 256) (o : Fin 11008)
    (h0 : win0_3.index t (0 : Fin 2) = 0) (ho : o.val = win0_3.index t (1 : Fin 2) * 256 + q.val) :
    bblk m c t (ix2 (0 : Fin 1) q) = argB m c (ix1 o) := by
  refine Eq.trans ?_ (EntryArrays.entry_bias m c (0 : Fin 1) o)
  show V m c main_v2 (((cfg0.win 3).blk t).view.emb (ix2 (0 : Fin 1) q)) = V m c main_v2 (ix2 (0 : Fin 1) o)
  refine congrArg _ (funext fun a => Fin.ext ?_)
  match a with
  | ⟨0, _⟩ => show win0_3.index t (0 : Fin 2) * 1 + 1 * 0 = 0; omega
  | ⟨1, _⟩ => show win0_3.index t (1 : Fin 2) * 256 + 1 * q.val = o.val; omega

/-! ## The region's result array -/

/-- The region's result array [16384, 11008] as one function of the argument arrays: the linear layer's value at
    (r / 2048, r % 2048, o). -/
def H (c : Dev nD) : S16384x11008.Idx → EReal := fun j =>
  Cert.QuantLaw.G (argX m c) (argQ m c) (argS m c) (argB m c)
    (ix3 (rowB (j 0)) (rowT (j 0)) (j 1))

/-- WHAT AN ODD POSITION WRITES BACK is its block of `H`: the block's entry (p, q) is the two half sums of products added
    from zero, scaled and biased (the body's arithmetic), over entries that are the arguments at row `tile · 512 + p`,
    channel `tile · 256 + q`; the scale factors out of the sum because the activations and the scale are real. -/
theorem flushed_eq (c : Dev nD)
    (hX : ∀ i, ∃ r : ℝ, argX m c i = (r : EReal))
    (hS : ∀ i, ∃ r : ℝ, argS m c i = (r : EReal))
    (t : Fin cfg0.N) (hf : (cfg0.win 4).flush t = true) :
    (dats m 0 c).flushed 4 t = ((cfg0.win 4).blk t).view.read (Elt Ideal) (H m c) := by
  have h1 : t.val % 2 = 1 := (flush0_4 t).mp hf
  have hN : t.val < 2752 := lt_of_lt_of_eq t.isLt (show cfg0.N = 2752 from N_0)
  show (cfg0.win 4).cut (grid0.coords t) ((dats m 0 c).after 4 t) = _
  rw [after0_4, out_odd m c t h1]
  funext y
  obtain ⟨p, q, rfl⟩ : ∃ (p : Fin 512) (q : Fin 256), y = ix2 p q := ⟨y 0, y 1, eq_ix2 y⟩
  show k0_pay3 (F := Ideal) (k0_pay2 (xblk m c t) (wblk m c t) (k0_pay2 (xblk m c (prev t)) (wblk m c (prev t)) (k0_pay1 (F := Ideal)))) (sblk m c t) (bblk m c t) (ix2 p q)
    = H m c (((cfg0.win 4).blk t).view.emb (ix2 p q))
  refine (BlockValue.block_at (xblk m c (prev t)) (xblk m c t) (wblk m c (prev t)) (wblk m c t) (sblk m c t) (bblk m c t) p q).trans ?_
  obtain ⟨x0, x1, w0, w1, s0, s1, b0, b1, o0, o1⟩ := idx_closed t
  obtain ⟨y0, y1, z0, z1, -, -, -, -, -, -⟩ := idx_closed (prev t)
  have y0' : win0_0.index (prev t) (0 : Fin 2) = (t.val - 1) / 86 := y0
  have y1' : win0_0.index (prev t) (1 : Fin 2) = (t.val - 1) % 2 := y1
  have z0' : win0_1.index (prev t) (0 : Fin 2) = (t.val - 1) / 2 % 43 := z0
  have z1' : win0_1.index (prev t) (1 : Fin 2) = (t.val - 1) % 2 := z1
  have hp : p.val < 512 := p.isLt
  have hq : q.val < 256 := q.isLt
  -- the row and the channel of the result array this entry is
  obtain ⟨r, hr⟩ : ∃ r : Fin 16384, r.val = t.val / 86 * 512 + p.val := ⟨⟨t.val / 86 * 512 + p.val, by omega⟩, rfl⟩
  obtain ⟨o, ho⟩ : ∃ o : Fin 11008, o.val = t.val / 2 % 43 * 256 + q.val := ⟨⟨t.val / 2 % 43 * 256 + q.val, by omega⟩, rfl⟩
  have hemb : ((cfg0.win 4).blk t).view.emb (ix2 p q) = ix2 r o := funext fun a => Fin.ext (by
    match a with
    | ⟨0, _⟩ => show win0_4.index t (0 : Fin 2) * 512 + 1 * p.val = r.val; omega
    | ⟨1, _⟩ => show win0_4.index t (1 : Fin 2) * 256 + 1 * q.val = o.val; omega)
  rw [hemb]
  have eA : ∀ k : Fin 2048, xblk m c (prev t) (ix2 p k) * ((((wblk m c (prev t) (ix2 q k)).toInt : ℝ) : EReal))
      = argX m c (ix3 (rowB r) (rowT r) (Cert.QuantLaw.lo k))
        * ((((argQ m c (ix2 o (Cert.QuantLaw.lo k))).toInt : ℝ) : EReal)) := fun k => by
    rw [x_at m c (prev t) p k r (Cert.QuantLaw.lo k) (by omega) (by show k.val = _; omega),
      w_at m c (prev t) q k o (Cert.QuantLaw.lo k) (by omega) (by show k.val = _; omega)]
  have eB : ∀ k : Fin 2048, xblk m c t (ix2 p k) * ((((wblk m c t (ix2 q k)).toInt : ℝ) : EReal))
      = argX m c (ix3 (rowB r) (rowT r) (Cert.QuantLaw.hi k))
        * ((((argQ m c (ix2 o (Cert.QuantLaw.hi k))).toInt : ℝ) : EReal)) := fun k => by
    rw [x_at m c t p k r (Cert.QuantLaw.hi k) (by omega) (by show 2048 + k.val = _; omega),
      w_at m c t q k o (Cert.QuantLaw.hi k) (by omega) (by show 2048 + k.val = _; omega)]
  rw [Finset.sum_congr rfl (fun k _ => eA k), Finset.sum_congr rfl (fun k _ => eB k),
    s_at m c t q o s0 (by omega), b_at m c t q o b0 (by omega)]
  exact Cert.QuantLaw.ereal_law (fun kk => argX m c (ix3 (rowB r) (rowT r) kk)) (fun kk => hX _)
    (fun kk => ((argQ m c (ix2 o kk)).toInt : ℝ)) (argS m c (ix1 o)) (hS _) (argB m c (ix1 o))

/-- So the region's result array ends holding `H`: the odd positions' blocks tile it. -/
theorem final (c : Dev nD)
    (hX : ∀ i, ∃ r : ℝ, argX m c i = (r : EReal))
    (hS : ∀ i, ∃ r : ℝ, argS m c i = (r : EReal)) :
    (dats m 0 c).arrAt 4 cfg0.N = H m c :=
  (dats m 0 c).arrAt_eq_of_cover 4 (H m c) (flushed_eq m c hX hS) cover

end Cert.KernelIdeal.OutArray

end
-- ==== Proof.ResultRun.lean ====
/-
  The idealized kernel program's run, with its result named.

  After the kernel region the program only views the [16384, 11008] result as [8, 2048, 11008]; the view keeps the
  row-major order, so entry (b, t, o) is row `b · 2048 + t`, column `o` of the region's array, which holds the linear
  layer's value at (row / 2048, row % 2048, o): the two re-indexings cancel.
-/
import proofs.«132910_j17377437680105_1_alg».proof.Proof.OutArray
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ResultRun

open Cert.KernelIdeal Cert.KernelIdeal.Gen Cert.KernelIdeal.OutArray

variable (m : (ℓ : Loc nD τ sig) → Buf (Elt Ideal) ℓ) (ρ : Dev nD → PrngReg)

/-- The region's array viewed as [8, 2048, 11008] is the linear layer's value: (b, t, o) is row `b · 2048 + t`, whose
    quotient and remainder by 2048 are `b` and `t` again. -/
theorem reshape_H (c : Dev nD) :
    shapeCast S8x2048x11008 (H m c) shapeCasts_S16384x11008_S8x2048x11008 = Cert.QuantLaw.G (argX m c) (argQ m c) (argS m c) (argB m c) := by
  funext i
  obtain ⟨b, s, o, rfl⟩ : ∃ (b : Fin 8) (s : Fin 2048) (o : Fin 11008), i = ix3 b s o := ⟨i 0, i 1, i 2, eq_ix3 i⟩
  have hb := b.isLt
  have hs := s.isLt
  obtain ⟨r, hr⟩ : ∃ r : Fin 16384, r.val = b.val * 2048 + s.val := ⟨⟨b.val * 2048 + s.val, by omega⟩, rfl⟩
  rw [shapeCast_apply (H m c) shapeCasts_S16384x11008_S8x2048x11008 (ix3 b s o) (ix2 r o) (by
    rw [Shape.rowMajor_val_two, Shape.rowMajor_val_three]
    show r.val * 11008 + o.val = (b.val * 2048 + s.val) * 11008 + o.val
    rw [hr])]
  have e1 : rowB r = b := Fin.ext (by show r.val / 2048 = b.val; omega)
  have e2 : rowT r = s := Fin.ext (by show r.val % 2048 = s.val; omega)
  show Cert.QuantLaw.G _ _ _ _ (ix3 (rowB r) (rowT r) o) = _
  rw [e1, e2]

/-- What the one operation after the region leaves in the result buffer: the region's array, which ends at `H`, viewed
    as [8, 2048, 11008]. -/
theorem tail_eq (c : Dev nD)
    (hX : ∀ i, ∃ r : ℝ, argX m c i = (r : EReal)) (hS : ∀ i, ∃ r : ℝ, argS m c i = (r : EReal)) :
    Pipeline.afterTail₀ cfgs (dats m) 0 (V0 m) [hostOps1] c main_v4 = Cert.QuantLaw.G (argX m c) (argQ m c) (argS m c) (argB m c) := by
  unfold Pipeline.afterTail₀
  show StableHlo.after hostOps1 _ (Proc.devRef .tc main_v4) = _
  after_results
  refine Eq.trans ?_ (reshape_H m c)
  show shapeCast S8x2048x11008 (Pipeline.withArrays (cfgs 0).spec c (V0 m c) (fun w => (dats m 0 c).arrAt w (cfgs 0).N) (Proc.devRef .tc main_v3))
      shapeCasts_S16384x11008_S8x2048x11008 = _
  exact congrArg (fun x => shapeCast S8x2048x11008 x shapeCasts_S16384x11008_S8x2048x11008)
    ((Pipeline.withArrays_arr spec0 launch0.win.arr_inj c (V0 m c) (fun w => (dats m 0 c).arrAt w (cfgs 0).N) 4).trans (final m c hX hS))

/-- THE RUN, READ: when every activation and every scale is a real number, every weakly fair execution of the idealized
    kernel program terminates with the result buffer at the linear layer's value of the argument arrays, and the
    arguments unchanged. -/
theorem run (hfin : ∀ c : Dev nD, (∀ i, ∃ r : ℝ, argX m c i = (r : EReal)) ∧ (∀ i, ∃ r : ℝ, argS m c i = (r : EReal))) :
    θ_run defs (onTc (τ := τ) (main (F := Ideal))) ⟨m, fun _ => 0, ρ⟩ fun r => ∀ c : Dev nD,
      r.2.mem ((c.tc : Thread nD τ).loc main_v4) = Cert.QuantLaw.G (argX m c) (argQ m c) (argS m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (tail_eq m c (hfin c).1 (hfin c).2),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.ResultRun

end
-- ==== Proof.RefValue.lean ====
import proofs.«132910_j17377437680105_1_alg».proof.Proof.Gen.ReferenceIdeal.Run
import proofs.«132910_j17377437680105_1_alg».proof.Proof.Gen.ReferenceIdeal.Read
import proofs.«132910_j17377437680105_1_alg».proof.Proof.QuantLaw
import Idealize.ShloMosaic.Lib.ValueIdx
import Idealize.ShloMosaic.PureOps.Ideal

/-
  The reference program's result, element by element, is the linear layer with per-channel scaled integer weights:
  at `(b, t, o)` it is `∑ k, x (b, t, k) · (q (o, k) · s o) + bias o`.
-/

noncomputable section

namespace Cert.ReferenceIdeal.RefValue

open Cert.ReferenceIdeal Cert.ReferenceIdeal.Read Idealize.ShloMosaic Idealize.ShloMosaic.ValueIdx

/-- The contraction reads the activations at `(b, t, k)`: the two free coordinates of the result, then the contracted one. -/
theorem lidx_eq (i : S8x2048x11008.Idx) (k : Fin 4096) : lidx_main_v4 i k = ix3 (n0 := 8) (n1 := 2048) (n2 := 4096) (i 0) (i 1) k :=
  funext fun a => Fin.ext (by match a with | ⟨0, _⟩ => rfl | ⟨1, _⟩ => rfl | ⟨2, _⟩ => rfl)

/-- The contraction reads the weights at `(o, k)`: the result's channel coordinate, then the contracted one. -/
theorem ridx_eq (i : S8x2048x11008.Idx) (k : Fin 4096) : ridx_main_v4 i k = ix2 (n0 := 11008) (n1 := 4096) (i 2) k :=
  funext fun a => Fin.ext (by match a with | ⟨0, _⟩ => rfl | ⟨1, _⟩ => rfl)

/-- The scale, spread over a column of size one and then over the 4096 columns, is read at the row `o` of the weight index. -/
theorem scale_idx_eq (j : S11008x4096.Idx) : idx_main_v1 (idx_main_v2 j) = ix1 (n := 11008) (j 0) :=
  funext fun a => Fin.ext (by match a with | ⟨0, _⟩ => rfl)

/-- The bias, spread over two leading axes of size one and then over the batch and the rows, is read at the channel `o`. -/
theorem bias_idx_eq (i : S8x2048x11008.Idx) : idx_main_v5 (idx_main_v6 i) = ix1 (n := 11008) (i 2) :=
  funext fun a => Fin.ext (by match a with | ⟨0, _⟩ => rfl)

/-- The reference's result is `G`: the sum over `k` of the activation times the integer weight times the channel's scale,
    plus the channel's bias. Addition, multiplication and the integer-to-real conversion are those of the extended reals. -/
theorem ref_eq_G (x0 : (⟨S8x2048x4096, .f32⟩ : BufTy).Contents (Elt Ideal)) (x1 : (⟨S11008x4096, .i32⟩ : BufTy).Contents (Elt Ideal))
    (x2 x3 : (⟨S11008, .f32⟩ : BufTy).Contents (Elt Ideal)) :
    Cert.ReferenceIdeal.Read.val_main_v7 (F := Ideal) x0 x1 x2 x3 = Cert.QuantLaw.G x0 x1 x2 x3 := by
  funext i
  rw [val_main_v7_apply, val_main_v4_apply, val_main_v6_apply, val_main_v5_apply, bias_idx_eq]
  simp only [val_main_v3_apply, val_main_v2_apply, val_main_v1_apply, val_main_v0_apply, lidx_eq, ridx_eq, scale_idx_eq]
  rfl

end Cert.ReferenceIdeal.RefValue

end
-- ==== Proof.FiniteInputs.lean ====
import proofs.«132910_j17377437680105_1_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

/-
  What the finiteness precondition says of the arguments: it is the conjunction, over the activations, the scales and the
  biases, of "every entry has absolute value strictly below +∞". On the extended reals that is "every entry is a real number":
  the two infinities have absolute value +∞, which is not strictly below itself.
-/

noncomputable section

namespace Cert.FiniteInputs

open Idealize.ShloMosaic Idealize.ShloMosaic.ValueIdx Cert.Pre_finite_inputs

/-- The scalar shape has exactly one index: the function from the empty set of axes. -/
instance subsingleton_scalar_idx : Subsingleton S_.Idx := ⟨fun a b => funext fun d => d.elim0⟩

/-- A truth value written as a one-bit word is the word 1 exactly when it is true. -/
theorem ofBool_eq_one (b : Bool) : BitVec.ofBool b = 1#1 ↔ b = true := by cases b <;> decide

/-- The 32-bit pattern with all exponent bits set, sign and fraction clear, denotes +∞. -/
theorem inf_word : Ideal.ofBits .f32 0x7F800000#32 = ⊤ := by simp [Ideal.ofBits, Ideal.ieee]

/-- An extended real whose absolute value `max x (-x)` compares strictly below the +∞ pattern is a real number:
    at `⊥` the negation is `⊤`, at `⊤` the value itself is, and `⊤ < ⊤` is false. -/
theorem real_of_abs_lt_inf (x : EReal)
    (h : Ideal.cmp .olt (max x (-x)) (Ideal.ofBits .f32 0x7F800000#32) = 1#1) : ∃ r : ℝ, x = (r : EReal) := by
  rw [inf_word] at h
  have hlt : max x (-x) < (⊤ : EReal) := of_decide_eq_true ((ofBool_eq_one (decide (max x (-x) < (⊤ : EReal)))).1 h)
  induction x using EReal.rec with
  | bot => exact absurd hlt (by simp)
  | coe r => exact ⟨r, rfl⟩
  | top => exact absurd hlt (by simp)

/-- From the precondition answering 1: every activation and every scale is a real number. The predicate is a conjunction
    of three all-quantified comparisons; the first speaks of the activations and the second of the scales. -/
theorem real_of_pre (a0 : FVec Ideal Cert.Pre_finite_inputs.S8x2048x4096 .f32) (a1 : IVec Cert.Pre_finite_inputs.S11008x4096 32)
    (a2 a3 : FVec Ideal Cert.Pre_finite_inputs.S11008 .f32)
    (h : Cert.Pre_finite_inputs.fn (F := Ideal) a0 a1 a2 a3 = fun _ => 1#1) :
    (∀ i, ∃ r : ℝ, a0 i = (r : EReal)) ∧ (∀ i, ∃ r : ℝ, a2 i = (r : EReal)) := by
  have h0 := congrFun h ValueIdx.ix0
  dsimp only [Cert.Pre_finite_inputs.fn] at h0
  obtain ⟨h01, _⟩ := IntOp.andi_eq_one.1 h0
  obtain ⟨h1, h2⟩ := IntOp.andi_eq_one.1 h01
  refine ⟨fun i => ?_, fun i => ?_⟩
  · exact real_of_abs_lt_inf (a0 i) (Host.reduce_andi_all _ _ _ _ _ h1 i)
  · exact real_of_abs_lt_inf (a2 i) (Host.reduce_andi_all _ _ _ _ _ h2 i)

end Cert.FiniteInputs

end
-- ==== Proof.lean ====
/-
  A per-channel quantized linear layer: the kernel against its reference, over the extended reals.

  The kernel tiles `out[r, o] = (∑ k, x[r, k] · q[o, k]) · s[o] + b[o]` over (row tile, channel tile, half of k): it
  accumulates the two halves' products of the activations with the INTEGER weights into a scratch block and applies the
  channel's scale and bias once, after the second half.  The reference dequantizes first, `w[o, k] = q[o, k] · s[o]`, and
  contracts `x` with `w`, then adds the bias.  At the ideal values a change of float format is the identity and an
  integer is the real number it is, so the two differ exactly by factoring `s[o]` out of the sum over `k` (and by
  summing the 4096 terms as two halves from zero).  That factoring is a law of the real numbers which the infinities break,
  and the precondition, every float input finite, is what supplies it: the activations and the scales are real.  The bias
  is only added last on both sides and plays no part.

  The three frames are the generated ones (the reference's is its generated run with the result dropped); the idealization
  rewrote nothing, so its soundness conjunct is trivial.  The value conjunct: the kernel program ends with its result at `G`
  of its arguments (module ResultRun, over the block-by-block reading of the region's array in OutArray), the reference
  ends with its result at `G` of its arguments (module RefValue), and the arguments agree.
-/
import proofs.«132910_j17377437680105_1_alg».proof.Defs
import proofs.«132910_j17377437680105_1_alg».proof.Proof.Gen.Kernel
import proofs.«132910_j17377437680105_1_alg».proof.Proof.Gen.Kernel.Skeleton
import proofs.«132910_j17377437680105_1_alg».proof.Proof.Gen.Kernel.Launch
import proofs.«132910_j17377437680105_1_alg».proof.Proof.Gen.Kernel.Points
import proofs.«132910_j17377437680105_1_alg».proof.Proof.Gen.Kernel.Frame
import proofs.«132910_j17377437680105_1_alg».proof.Proof.Gen.KernelIdeal
import proofs.«132910_j17377437680105_1_alg».proof.Proof.Gen.KernelIdeal.Skeleton
import proofs.«132910_j17377437680105_1_alg».proof.Proof.Gen.KernelIdeal.Launch
import proofs.«132910_j17377437680105_1_alg».proof.Proof.Gen.KernelIdeal.Points
import proofs.«132910_j17377437680105_1_alg».proof.Proof.Gen.KernelIdeal.Frame
import proofs.«132910_j17377437680105_1_alg».proof.Proof.Gen.ReferenceIdeal
import proofs.«132910_j17377437680105_1_alg».proof.Proof.Gen.ReferenceIdeal.Run
import proofs.«132910_j17377437680105_1_alg».proof.Proof.Gen.ReferenceIdeal.Read
import proofs.«132910_j17377437680105_1_alg».proof.Proof.Gen.Pre_finite_inputs
import proofs.«132910_j17377437680105_1_alg».proof.Proof.ResultRun
import proofs.«132910_j17377437680105_1_alg».proof.Proof.RefValue
import proofs.«132910_j17377437680105_1_alg».proof.Proof.FiniteInputs
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference is straight-line host code: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with their result at the linear layer's value `G` of their arguments, which agree; the kernel's
    side needs the activations and the scales real, which the precondition says. -/
theorem algebraic : Cert.algebraic_KernelIdeal_ReferenceIdeal := by
  intro m ρ m' ρ' hpre hagree
  have hfin : ∀ c : Dev Cert.KernelIdeal.nD,
      (∀ i, ∃ r : ℝ, Cert.KernelIdeal.OutArray.argX m c i = (r : EReal)) ∧ (∀ i, ∃ r : ℝ, Cert.KernelIdeal.OutArray.argS m c i = (r : EReal)) :=
    fun c => Cert.FiniteInputs.real_of_pre _ _ _ _ (hpre c)
  refine ⟨fun c => Cert.QuantLaw.G (Cert.KernelIdeal.OutArray.argX m c) (Cert.KernelIdeal.OutArray.argQ m c)
      (Cert.KernelIdeal.OutArray.argS m c) (Cert.KernelIdeal.OutArray.argB m c), Cert.KernelIdeal.ResultRun.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq_G,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
